-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S256x256 : Shape := ⟨2, ![256, 256]⟩
abbrev S256 : Shape := ⟨1, ![256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg1 : IVec S640000 32) (main_v13 : IVec S_ 1) (main_v15 : IVec S640000 1) (main_c_5 : IVec S_ 32) : IVec S_ 1 :=
  let main_v16 : IVec S640000 32 := broadcastInDim S640000 ![] bcast_S_S640000 main_c_5
  let main_v17 : IVec S640000 1 := cmpi .slt main_arg1 main_v16
  let main_v18 : IVec S640000 1 := andi main_v15 main_v17
  let main_c_6 : IVec S_ 1 := constantI S_ 1 1#1
  let main_v19 : IVec S_ 1 := (fun x v => Host.reduce IntOp.andi x v reducesTo_S640000_S_d0 h_S_) main_v18 main_c_6
  let main_v20 : IVec S_ 1 := andi main_v13 main_v19
  main_v20

def fn {F : FTy → Type} [FloatOps F] (main_arg0 : FVec F S10000x128 .f32) (main_arg1 : IVec S640000 32) (main_arg2 : IVec S640000 32) (main_arg3 : FVec F S256x256 .f32) (main_arg4 : FVec F S256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_c_4 : IVec S_ 32 := constantI S_ 32 4294957296#32
  let main_v14 : IVec S640000 32 := broadcastInDim S640000 ![] bcast_S_S640000 main_c_4
  let main_v15 : IVec S640000 1 := cmpi .sge main_arg1 main_v14
  let main_c_5 : IVec S_ 32 := constantI S_ 32 10000#32
  fn_part1 (F := F) main_arg1 main_v13 main_v15 main_c_5
-- ==== Kernel.lean ====
abbrev S10000x128 : Shape := ⟨2, ![10000, 128]⟩
abbrev S640000 : Shape := ⟨1, ![640000]⟩
abbrev S256x256 : Shape := ⟨2, ![256, 256]⟩
abbrev S256 : Shape := ⟨1, ![256]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S2000x256 : Shape := ⟨2, ![2000, 256]⟩

abbrev nBuf : Space → Nat
  | .hbm => 56
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S256x256, .f32⟩
  | .hbm, ⟨4, _⟩ => ⟨S256, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S1, .i32⟩
  | .hbm, ⟨14, _⟩ => ⟨S_, .i32⟩
  | .hbm, ⟨15, _⟩ => ⟨S640000x1, .i32⟩
  | .hbm, ⟨16, _⟩ => ⟨S640000x1, .i1⟩
  | .hbm, ⟨17, _⟩ => ⟨S1x1, .i32⟩
  | .hbm, ⟨18, _⟩ => ⟨S640000x1, .i32⟩
  | .hbm, ⟨19, _⟩ => ⟨S640000x1, .i1⟩
  | .hbm, ⟨20, _⟩ => ⟨S640000x1, .i1⟩
  | .hbm, ⟨21, _⟩ => ⟨S_, .i1⟩
  | .hbm, ⟨22, _⟩ => ⟨S640000, .i1⟩
  | .hbm, ⟨23, _⟩ => ⟨S640000x128, .f32⟩
  | .hbm, ⟨24, _⟩ => ⟨S640000x128, .i1⟩
  | .hbm, ⟨25, _⟩ => ⟨S_, .f32⟩
  | .hbm, ⟨26, _⟩ => ⟨S640000x128, .f32⟩
  | .hbm, ⟨27, _⟩ => ⟨S640000x128, .f32⟩
  | .hbm, ⟨28, _⟩ => ⟨S_, .f32⟩
  | .hbm, ⟨29, _⟩ => ⟨S10000x128, .f32⟩
  | .hbm, ⟨30, _⟩ => ⟨S640000x1, .i32⟩
  | .hbm, ⟨31, _⟩ => ⟨S10000x128, .f32⟩
  | .hbm, ⟨32, _⟩ => ⟨S_, .f32⟩
  | .hbm, ⟨33, _⟩ => ⟨S640000, .f32⟩
  | .hbm, ⟨34, _⟩ => ⟨S_, .f32⟩
  | .hbm, ⟨35, _⟩ => ⟨S10000, .f32⟩
  | .hbm, ⟨36, _⟩ => ⟨S640000x1, .i32⟩
  | .hbm, ⟨37, _⟩ => ⟨S10000, .f32⟩
  | .hbm, ⟨38, _⟩ => ⟨S10000x1, .f32⟩
  | .hbm, ⟨39, _⟩ => ⟨S_, .f32⟩
  | .hbm, ⟨40, _⟩ => ⟨S10000x1, .f32⟩
  | .hbm, ⟨41, _⟩ => ⟨S10000x1, .i1⟩
  | .hbm, ⟨42, _⟩ => ⟨S_, .f32⟩
  | .hbm, ⟨43, _⟩ => ⟨S10000, .f32⟩
  | .hbm, ⟨44, _⟩ => ⟨S10000, .f32⟩
  | .hbm, ⟨45, _⟩ => ⟨S10000x1, .f32⟩
  | .hbm, ⟨46, _⟩ => ⟨S10000x128, .f32⟩
  | .hbm, ⟨47, _⟩ => ⟨S10000x128, .f32⟩
  | .hbm, ⟨48, _⟩ => ⟨S_, .f32⟩
  | .hbm, ⟨49, _⟩ => ⟨S_, .f32⟩
  | .hbm, ⟨50, _⟩ => ⟨S10000x128, .i1⟩
  | .hbm, ⟨51, _⟩ => ⟨S10000x128, .f32⟩
  | .hbm, ⟨52, _⟩ => ⟨S10000x128, .f32⟩
  | .hbm, ⟨53, _⟩ => ⟨S10000x256, .f32⟩
  | .hbm, ⟨54, _⟩ => ⟨S1x256, .f32⟩
  | .hbm, ⟨55, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_0 : Ref sig .tc := ⟨.hbm, 32, rfl⟩
abbrev main_v4 : Ref sig .tc := ⟨.hbm, 33, rfl⟩
abbrev main_cst_1 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_2 : Ref sig .tc := ⟨.hbm, 39, rfl⟩
abbrev main_v9 : Ref sig .tc := ⟨.hbm, 40, rfl⟩
abbrev main_v10 : Ref sig .tc := ⟨.hbm, 41, rfl⟩
abbrev main_cst_3 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_4 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S10000x256.size a
  hwx0_3 : ∀ i : grid0.Coords, EltTy.bits .f32 = 32 ∨ (Rect.block (s := S10000x256) S2000x256.size (cc0_transform_3 i) (hinb0_3 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v17) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S640000 : Shape := ⟨1, ![640000]⟩
abbrev S256x256 : Shape := ⟨2, ![256, 256]⟩
abbrev S256 : Shape := ⟨1, ![256]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S256x256, .f32⟩
  | .hbm, ⟨4, _⟩ => ⟨S256, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S10000x128, .f32⟩
  | .hbm, ⟨16, _⟩ => ⟨S640000x1, .i32⟩
  | .hbm, ⟨17, _⟩ => ⟨S10000x128, .f32⟩
  | .hbm, ⟨18, _⟩ => ⟨S_, .f32⟩
  | .hbm, ⟨19, _⟩ => ⟨S640000, .f32⟩
  | .hbm, ⟨20, _⟩ => ⟨S_, .f32⟩
  | .hbm, ⟨21, _⟩ => ⟨S10000, .f32⟩
  | .hbm, ⟨22, _⟩ => ⟨S640000x1, .i32⟩
  | .hbm, ⟨23, _⟩ => ⟨S10000, .f32⟩
  | .hbm, ⟨24, _⟩ => ⟨S10000x1, .f32⟩
  | .hbm, ⟨25, _⟩ => ⟨S_, .f32⟩
  | .hbm, ⟨26, _⟩ => ⟨S10000x1, .f32⟩
  | .hbm, ⟨27, _⟩ => ⟨S10000x1, .i1⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x128, .f32⟩
  | .hbm, ⟨33, _⟩ => ⟨S10000x128, .f32⟩
  | .hbm, ⟨34, _⟩ => ⟨S_, .f32⟩
  | .hbm, ⟨35, _⟩ => ⟨S_, .f32⟩
  | .hbm, ⟨36, _⟩ => ⟨S10000x128, .i1⟩
  | .hbm, ⟨37, _⟩ => ⟨S10000x128, .f32⟩
  | .hbm, ⟨38, _⟩ => ⟨S10000x128, .f32⟩
  | .hbm, ⟨39, _⟩ => ⟨S10000x256, .f32⟩
  | .hbm, ⟨40, _⟩ => ⟨S10000x256, .f32⟩
  | .hbm, ⟨41, _⟩ => ⟨S1x256, .f32⟩
  | .hbm, ⟨42, _⟩ => ⟨S10000x256, .f32⟩
  | .hbm, ⟨43, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x256_S256x256_S10000x256_1_0_0_1_n_n_wf : DotDims.WF S10000x256 S256x256 S10000x256 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.LibAllOnes.lean ====
/-
  Three small facts about masks of ones, independent of any program.

  * A reduction by `and` whose initial value is one and whose operand is one everywhere is one at every
    result index: the fold over the operand indices that drop to that index meets only ones.
  * A `select` whose condition is one everywhere is its first branch.
  * A 32-bit word `a` with `-n ≤ a < n` (signed), wrapped by `if a < 0 then a + n else a`, lies in `[0, n - 1]`:
    the word addition does not overflow because `a + n` is between `0` and `n - 1`. Stated for `n = 10000`.
-/
import Idealize.ShloMosaic.Lib.ReduceAll
import Idealize.ShloMosaic.Lib.Affine
import Idealize.ShloMosaic.PureOps.Reduce

namespace Idealize.ShloMosaic

namespace Host

/-- An `and`-reduction from one of an operand that is one everywhere is one. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a]
    exact ih

end Host

/-- A `select` under a condition that is one at every index is its first branch. -/
theorem select_of_all_ones {s : Shape} {α : Type} (c : IVec s 1) (a b : s.Idx → α) (hc : ∀ j, c j = 1#1) :
    select c a b = a := by
  funext j
  show Scalar.select (c j) (a j) (b j) = a j
  rw [hc j]
  rfl

namespace IntOp

/-- A signed 32-bit index in `[-10000, 10000)`, with 10000 added when negative, lies in `[0, 9999]`. -/
theorem wrap_10000_in_range (a : BitVec 32) (h1 : -10000 ≤ a.toInt) (h2 : a.toInt < 10000) :
    (0#32 : BitVec 32).toInt ≤ (Scalar.select (IntOp.cmpi .slt a 0#32) (IntOp.addi a 10000#32) a).toInt
      ∧ (Scalar.select (IntOp.cmpi .slt a 0#32) (IntOp.addi a 10000#32) a).toInt ≤ (9999#32 : BitVec 32).toInt := by
  have e0 : (0#32 : BitVec 32).toInt = 0 := by decide
  have e9 : (9999#32 : BitVec 32).toInt = 9999 := by decide
  have ha := BitVec.toInt_eq_toNat_cond a
  have hlt : a.toNat < 2 ^ 32 := a.isLt
  rw [e0, e9]
  unfold Scalar.select
  by_cases hc : IntOp.cmpi .slt a 0#32 = 1
  · rw [if_pos hc]
    have hneg : a.toInt < (0#32 : BitVec 32).toInt := IntOp.cmpi_slt.1 hc
    rw [e0] at hneg
    have hs := BitVec.toInt_eq_toNat_cond (IntOp.addi a 10000#32)
    have hn : (IntOp.addi a 10000#32).toNat = (a.toNat + 10000) % 2 ^ 32 := by
      unfold IntOp.addi; rw [BitVec.toNat_add]; rfl
    split_ifs at ha hs <;> omega
  · rw [if_neg hc]
    have hnn : ¬ a.toInt < (0#32 : BitVec 32).toInt := fun h => hc (IntOp.cmpi_slt.2 h)
    rw [e0] at hnn
    omega

end IntOp

end Idealize.ShloMosaic
-- ==== Proof.KernelPrefix.lean ====
/-
  What the kernel's one region finds in its operand arrays: the host operations in front of it, as terms.

  The host part gathers rows of `h` at the index `src` (negative entries wrapped by +10000; rows whose wrapped index
  falls outside [0, 9999] replaced by a fill pattern), adds them into 10000 rows by `dst`, counts the edges per
  destination row, divides each row sum by max(count, 1) where the count is positive (zero elsewhere) and joins the
  result to `h` along the columns. It also views the bias as one row.

  When every entry of `src` lies in [-10000, 10000) the wrapped index is in [0, 9999] at every edge, so the
  in-bounds mask is one everywhere and the fill pattern is never taken: the gathered rows are the plain gather.
-/
import proofs.«406938_j54614804136338_1_alg».proof.Proof.Gen.KernelIdeal.Frame
import proofs.«406938_j54614804136338_1_alg».proof.Proof.LibAllOnes
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## The pieces of the host part -/

/-- The gather index: `src` with 10000 added where negative. -/
def wrapped (src : (⟨S640000, .i32⟩ : BufTy).Contents (Elt F)) : (⟨S640000, .i32⟩ : BufTy).Contents (Elt F) :=
  select (cmpi .slt src (broadcastInDim S640000 ![] bcast_S_S640000 (constantI S_ 32 0#32)))
    (addi src (broadcastInDim S640000 ![] bcast_S_S640000 (constantI S_ 32 10000#32))) src

/-- The same as a column. -/
def wrappedCol (src : (⟨S640000, .i32⟩ : BufTy).Contents (Elt F)) : (⟨S640000x1, .i32⟩ : BufTy).Contents (Elt F) :=
  broadcastInDim S640000x1 ![0] bcast_S640000_S640000x1_0 (wrapped (F := F) src)

/-- One where the wrapped index is inside [0, 9999], per edge and column. -/
def inBounds (src : (⟨S640000, .i32⟩ : BufTy).Contents (Elt F)) : (⟨S640000x128, .i1⟩ : BufTy).Contents (Elt F) :=
  broadcastInDim S640000x128 ![0] bcast_S640000_S640000x128_0
    (Host.reduce IntOp.andi
      (andi (cmpi .sge (wrappedCol (F := F) src) (broadcastInDim S640000x1 ![] bcast_S_S640000x1 (constantI S_ 32 0#32)))
        (cmpi .sle (wrappedCol (F := F) src) (broadcastInDim S640000x1 ![0, 1] bcast_S1x1_S640000x1_0_1 (broadcastInDim S1x1 ![1] bcast_S1_S1x1_1 (constantI S1 32 9999#32)))))
      (constantI S_ 1 1#1) reducesTo_S640000x1_S640000_d1 h_S_)

/-- The rows of `h` at the wrapped index. -/
def gathered (h : (⟨S10000x128, .f32⟩ : BufTy).Contents (Elt F)) (src : (⟨S640000, .i32⟩ : BufTy).Contents (Elt F)) :
    (⟨S640000x128, .f32⟩ : BufTy).Contents (Elt F) :=
  Host.gather gather_S10000x128_S640000x1_S640000x128_1_0_n_n_0_1_1128 h (wrappedCol (F := F) src)

/-- The messages the kernel's host part builds: the gathered rows inside the bounds, the fill pattern outside. -/
def taken (h : (⟨S10000x128, .f32⟩ : BufTy).Contents (Elt F)) (src : (⟨S640000, .i32⟩ : BufTy).Contents (Elt F)) :
    (⟨S640000x128, .f32⟩ : BufTy).Contents (Elt F) :=
  select (inBounds (F := F) src) (gathered (F := F) h src) (broadcastInDim S640000x128 ![] bcast_S_S640000x128 (constant S_ .f32 0x7FC00000#32))

/-- How many edges end in each row. -/
def degree (dst : (⟨S640000, .i32⟩ : BufTy).Contents (Elt F)) : (⟨S10000, .f32⟩ : BufTy).Contents (Elt F) :=
  Host.scatterAdd scatter_S10000_S640000x1_S640000_n_0_0_1 (broadcastInDim S10000 ![] bcast_S_S10000 (constant S_ .f32 0x00000000#32))
    (broadcastInDim S640000x1 ![0] bcast_S640000_S640000x1_0 dst) (broadcastInDim S640000 ![] bcast_S_S640000 (constant S_ .f32 0x3F800000#32))

/-- `h` joined to the mean of the messages per destination row (zero where no edge ends). -/
def meanConcat (h : (⟨S10000x128, .f32⟩ : BufTy).Contents (Elt F)) (dst : (⟨S640000, .i32⟩ : BufTy).Contents (Elt F))
    (msgs : (⟨S640000x128, .f32⟩ : BufTy).Contents (Elt F)) : (⟨S10000x256, .f32⟩ : BufTy).Contents (Elt F) :=
  concatenate S10000x256 1 [⟨S10000x128, h⟩, ⟨S10000x128,
    select (broadcastInDim S10000x128 ![0, 1] bcast_S10000x1_S10000x128_0_1
        (cmpf (F := F) .ogt (broadcastInDim S10000x1 ![0] bcast_S10000_S10000x1_0 (degree (F := F) dst)) (broadcastInDim S10000x1 ![] bcast_S_S10000x1 (constant S_ .f32 0x00000000#32))))
      (Host.divf
        (Host.scatterAdd scatter_S10000x128_S640000x1_S640000x128_1_0_0_1 (broadcastInDim S10000x128 ![] bcast_S_S10000x128 (constant S_ .f32 0x00000000#32))
          (broadcastInDim S640000x1 ![0] bcast_S640000_S640000x1_0 dst) msgs)
        (broadcastInDim S10000x128 ![0, 1] bcast_S10000x1_S10000x128_0_1 (broadcastInDim S10000x1 ![0] bcast_S10000_S10000x1_0
          (maximumf (degree (F := F) dst) (broadcastInDim S10000 ![] bcast_S_S10000 (constant S_ .f32 0x3F800000#32))))))
      (broadcastInDim S10000x128 ![] bcast_S_S10000x128 (constant S_ .f32 0x00000000#32))⟩]
    concatenates_S10000x128_S10000x128_S10000x256_d1

/-! ## The arrays as the region finds them -/

/-- One host operation's result at a buffer, rewritten one operation at a time: at the buffer it writes, its function of
    its operands' contents; at any other buffer, what was there. -/
macro "peel_results" : tactic =>
  `(tactic| (repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

variable (m : (ℓ : Loc nD τ sig) → Buf (Elt F) ℓ)

set_option maxHeartbeats 8000000 in
/-- The first operand of the region: `h` joined to the mean of the taken messages. -/
theorem V_features (c : Dev nD) :
    (V m c main_v17 : (⟨S10000x256, .f32⟩ : BufTy).Contents (Elt F))
      = meanConcat (F := F) (m ((c : Thread nD τ).loc main_arg0)) (m ((c : Thread nD τ).loc main_arg2))
          (taken (F := F) (m ((c : Thread nD τ).loc main_arg0)) (m ((c : Thread nD τ).loc main_arg1))) := by
  dsimp only [V]
  simp only [hostOps0, hostOps0_1, hostOps0_2, hostOps0_3, List.flatten_cons, List.flatten_nil, List.append_nil, List.cons_append, List.nil_append]
  after_results_simp
  peel_results
  simp only [TRef.toBuf, TRef.ofBuf, cast_eq]
  rfl

set_option maxHeartbeats 2000000 in
/-- The third operand of the region: the bias viewed as one row. -/
theorem V_biasRow (c : Dev nD) :
    (V m c main_v18 : (⟨S1x256, .f32⟩ : BufTy).Contents (Elt F))
      = shapeCast S1x256 (m ((c : Thread nD τ).loc main_arg4) : (⟨S256, .f32⟩ : BufTy).Contents (Elt F)) shapeCasts_S256_S1x256 := by
  dsimp only [V]
  simp only [hostOps0, hostOps0_1, hostOps0_2, hostOps0_3, List.flatten_cons, List.flatten_nil, List.append_nil, List.cons_append, List.nil_append]
  after_results_simp
  rfl

/-! ## In range, nothing is filled -/

/-- The wrapped index column at an edge is the wrapped index there. -/
theorem wrappedCol_apply (src : (⟨S640000, .i32⟩ : BufTy).Contents (Elt F)) (i : S640000x1.Idx) :
    wrappedCol (F := F) src i = wrapped (F := F) src (ValueIdx.ix1 (n := 640000) (i 0)) := by
  unfold wrappedCol
  exact broadcastInDim_apply _ bcast_S640000_S640000x1_0 _ i (ValueIdx.ix1 (n := 640000) (i 0)) (fun a => match a with
    | ⟨0, _⟩ => by show (i 0).val = if (640000 : Nat) = 1 then 0 else (i 0).val; rw [if_neg (by decide)])

/-- With every entry of `src` in [-10000, 10000) the in-bounds mask is one everywhere. -/
theorem inBounds_ones (src : (⟨S640000, .i32⟩ : BufTy).Contents (Elt F))
    (hsrc : ∀ k : S640000.Idx, -10000 ≤ (src k).toInt ∧ (src k).toInt < 10000) (j : S640000x128.Idx) :
    inBounds (F := F) src j = 1#1 := by
  unfold inBounds
  refine (broadcastInDim_apply _ bcast_S640000_S640000x128_0 _ j (ValueIdx.ix1 (n := 640000) (j 0)) (fun a => match a with
    | ⟨0, _⟩ => by show (j 0).val = if (640000 : Nat) = 1 then 0 else (j 0).val; rw [if_neg (by decide)])).trans ?_
  refine Host.reduce_andi_of_all _ _ _ _ _ rfl fun i => ?_
  show IntOp.andi (IntOp.cmpi .sge (wrappedCol (F := F) src i) (0#32 : BitVec 32)) (IntOp.cmpi .sle (wrappedCol (F := F) src i) (9999#32 : BitVec 32)) = 1#1
  rw [wrappedCol_apply]
  obtain ⟨h1, h2⟩ := hsrc (ValueIdx.ix1 (n := 640000) (i 0))
  obtain ⟨w1, w2⟩ := IntOp.wrap_10000_in_range (src (ValueIdx.ix1 (n := 640000) (i 0))) h1 h2
  exact IntOp.andi_eq_one.2 ⟨IntOp.cmpi_sge.2 w1, IntOp.cmpi_sle.2 w2⟩

/-- So the taken messages are the gathered rows. -/
theorem taken_eq_gathered (h : (⟨S10000x128, .f32⟩ : BufTy).Contents (Elt F)) (src : (⟨S640000, .i32⟩ : BufTy).Contents (Elt F))
    (hsrc : ∀ k : S640000.Idx, -10000 ≤ (src k).toInt ∧ (src k).toInt < 10000) :
    taken (F := F) h src = gathered (F := F) h src :=
  select_of_all_ones _ _ _ (inBounds_ones (F := F) src hsrc)

end Cert.KernelIdeal.Hand

end
-- ==== Proof.KernelPayload.lean ====
/-
  What the kernel body stores, read entry by entry on the extended reals.

  The body loads a block `x` of 2000 rows of the feature matrix, the whole weight matrix `w` and the bias row `b`
  (1 × 256), narrows `x` and `w` to bf16 (the identity on the extended reals), multiplies them on the matrix unit into
  a zero accumulator and adds the bias row broadcast down the rows. So the stored block at (p, q) is

      (∑ k < 256, x (p, k) · w (k, q)) + b (0, q).

  The product is read as a sum over the one contracted axis: the contraction index set has one axis of extent 256 and
  is re-indexed by `Fin 256`; the operand indices at output (p, q) and contraction index k are (p, k) and (k, q).
-/
import proofs.«406938_j54614804136338_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The block product's operand indices -/

theorem lhs_blk_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_blk_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_blk_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_blk_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block product into a zero accumulator at (p, q): the sum over k of the left block at (p, k) times the right at (k, q). -/
theorem blockProduct_apply (x : FVec Ideal S2000x256 .bf16) (w : FVec Ideal S256x256 .bf16) (i : S2000x256.Idx) :
    matmul dot_S2000x256_S256x256_S2000x256_1_0_0_1_n_n none x w (constant S2000x256 .f32 0x00000000#32) i
      = ∑ k : Fin 256, x (ix2 (n0 := 2000) (n1 := 256) (i 0) k) * w (ix2 (n0 := 256) (n1 := 256) k (i 1)) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx i ((ValueIdx.contrEquiv1 dot_S2000x256_S256x256_S2000x256_1_0_0_1_n_n 256 rfl rfl).symm k) = ix2 (n0 := 2000) (n1 := 256) (i 0) k := funext fun a => Fin.ext (by
    match a with
    | ⟨0, _⟩ => exact lhs_blk_0 _ _
    | ⟨1, _⟩ => exact (lhs_blk_1 _ _).trans hk)
  have er : dot_S2000x256_S256x256_S2000x256_1_0_0_1_n_n.rhsIdx i ((ValueIdx.contrEquiv1 dot_S2000x256_S256x256_S2000x256_1_0_0_1_n_n 256 rfl rfl).symm k) = ix2 (n0 := 256) (n1 := 256) k (i 1) := funext fun a => Fin.ext (by
    match a with
    | ⟨0, _⟩ => exact (rhs_blk_0 _ _).trans hk
    | ⟨1, _⟩ => exact rhs_blk_1 _ _)
  rw [el, er]

/-! ## The stored block -/

/-- The body's one store at (p, q): row p of the feature block against column q of the weights, plus the bias row at q. -/
theorem stored_apply (v0 : Vec Ideal S2000x256 .f32) (v3 : Vec Ideal S256x256 .f32) (v6 : Vec Ideal S1x256 .f32) (i : S2000x256.Idx) :
    k0_pay1 (F := Ideal) v0 v3 v6 i
      = (∑ k : Fin 256, v0 (ix2 (n0 := 2000) (n1 := 256) (i 0) k) * v3 (ix2 (n0 := 256) (n1 := 256) k (i 1)))
        + v6 (ix2 (n0 := 1) (n1 := 256) 0 (i 1)) := by
  unfold k0_pay1
  refine (ValueIdx.addf_apply _ _ i).trans ?_
  congr 1
  · refine (blockProduct_apply _ _ i).trans ?_
    refine Finset.sum_congr rfl fun k _ => ?_
    rw [ValueIdx.truncf_apply, ValueIdx.truncf_apply, shapeCast_self]
  · refine (broadcastTo_apply _ _ i (ix2 (n0 := 1) (n1 := 256) 0 (i 1)) ?_).trans ?_
    · intro a
      match a with
      | ⟨0, _⟩ => show (0 : Nat) = if (1 : Nat) = 1 then 0 else _; rw [if_pos rfl]
      | ⟨1, _⟩ => show (i 1).val = if (256 : Nat) = 1 then 0 else _; rw [if_neg (by decide)]; rfl
    · rw [shapeCast_self]

end Cert.KernelIdeal.Hand

end
-- ==== Proof.Spec.lean ====
/-
  The dense layer both programs end in, as one function of three arrays, entry by entry:
  for a feature matrix `X` of 10000 rows and 256 columns, weights `W` (256 × 256) and a bias `b` (256),

      linear X W b (r, c) = (∑ k < 256, X (r, k) · W (k, c)) + b c

  on the extended reals. Nothing here mentions either program.
-/
import Idealize.ShloMosaic.PureOps.Ideal
import Idealize.ShloMosaic.Lib.ValueIdx

noncomputable section

namespace Cert.Spec

open Idealize.ShloMosaic Idealize.ShloMosaic.ValueIdx

/-- Row `r` of `X` against column `c` of `W`, plus the bias at `c`. -/
def linear (X : (⟨2, ![10000, 256]⟩ : Shape).Idx → EReal) (W : (⟨2, ![256, 256]⟩ : Shape).Idx → EReal)
    (b : (⟨1, ![256]⟩ : Shape).Idx → EReal) : (⟨2, ![10000, 256]⟩ : Shape).Idx → EReal :=
  fun i => (∑ k : Fin 256, X (ix2 (n0 := 10000) (n1 := 256) (i 0) k) * W (ix2 (n0 := 256) (n1 := 256) k (i 1)))
    + b (ix1 (n := 256) (i 1))

end Cert.Spec

end
-- ==== Proof.KernelValue.lean ====
/-
  The kernel's result array after the run, as one function of the arrays its region finds.

  The grid has five points; point t stages rows 2000·t … 2000·t + 1999 of the feature matrix, the whole weight
  matrix and the whole bias row, and writes rows 2000·t … 2000·t + 1999 of the result. What it writes at (p, q) of
  its block is row p of the feature block against column q of the weights plus the bias at q, which is the dense
  layer `Cert.Spec.linear` of the whole arrays at row 2000·t + p, column q. The five row blocks cover the result
  (row r lies in block r / 2000), so the result array is the dense layer of the arrays found.
-/
import proofs.«406938_j54614804136338_1_alg».proof.Proof.Gen.KernelIdeal.Value
import proofs.«406938_j54614804136338_1_alg».proof.Proof.KernelPayload
import proofs.«406938_j54614804136338_1_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The feature matrix, the weights and the bias row as the region finds them, each at its literal type. -/
abbrev feat (c : Dev nD) : (⟨2, ![10000, 256]⟩ : Shape).Idx → EReal := V m c main_v17
@[inherit_doc feat]
abbrev wts (c : Dev nD) : (⟨2, ![256, 256]⟩ : Shape).Idx → EReal := V m c main_arg3
@[inherit_doc feat]
abbrev brow (c : Dev nD) : (⟨2, ![1, 256]⟩ : Shape).Idx → EReal := V m c main_v18

/-- The bias row the region finds, as a vector over the columns. -/
def biasFound (c : Dev nD) : (⟨1, ![256]⟩ : Shape).Idx → EReal :=
  fun j => brow m c (ix2 (n0 := 1) (n1 := 256) 0 (j 0))

/-- The dense layer of the arrays the region finds. -/
def result (c : Dev nD) : (⟨2, ![10000, 256]⟩ : Shape).Idx → EReal :=
  Cert.Spec.linear (feat m c) (wts m c) (biasFound m c)

/-- The windows' block indices over the grid: the feature window and the result window move together down the rows,
    everything else stays at block zero. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every one of the five row blocks is some point's. -/
theorem block_onto : ∀ (q0 : Fin 5), ∃ t : Fin cfg0.N, win0_3.index t = ![q0.val, 0] :=
  (by decide +kernel : ∀ (q0 : Fin 5), ∃ t : Fin grid0.N, win0_3.index t = ![q0.val, 0])

/-- For ANY three arrays: the body's store over their blocks at point `t`, cut to the result window's block, is block
    `t` of their dense layer. Entry (p, q) of the stored block is row p of the feature block against column q of the
    weights plus the bias row at q; the feature block's row p is row 2000·t + p of the array, the weights' and the
    bias row's blocks are the whole arrays, and the result block's entry (p, q) is entry (2000·t + p, q) of the array. -/
theorem block_eq (X : (⟨2, ![10000, 256]⟩ : Shape).Idx → EReal) (W : (⟨2, ![256, 256]⟩ : Shape).Idx → EReal)
    (B : (⟨2, ![1, 256]⟩ : Shape).Idx → EReal) (t : Fin cfg0.N) :
    (cfg0.win 3).cut (grid0.coords t)
        (out0_3 (F := Ideal) (((cfg0.win 0).blk t).view.read (Elt Ideal) X) (((cfg0.win 1).blk t).view.read (Elt Ideal) W)
          (((cfg0.win 2).blk t).view.read (Elt Ideal) B))
      = ((cfg0.win 3).blk t).view.read (Elt Ideal)
          (Cert.Spec.linear X W (fun j => B (ix2 (n0 := 1) (n1 := 256) 0 (j 0)))) := by
  unfold out0_3
  rw [View.canon_unit_zero offsets_zero]
  simp only [View.ld_unit_zero (S := S2000x256) offsets_zero, View.ld_unit_zero (S := S256x256) offsets_zero, View.ld_unit_zero (S := S1x256) offsets_zero]
  obtain ⟨e00, e01, e10, e11, e20, e21, e31⟩ := block_indices t
  refine funext fun (j : S2000x256.Idx) => ?_
  obtain ⟨p, q, rfl⟩ : ∃ (p : Fin 2000) (q : Fin 256), j = ix2 p q := ⟨j 0, j 1, eq_ix2 j⟩
  show k0_pay1 (F := Ideal) (((cfg0.win 0).blk t).view.read (Elt Ideal) X) (((cfg0.win 1).blk t).view.read (Elt Ideal) W)
        (((cfg0.win 2).blk t).view.read (Elt Ideal) B) (ix2 p q)
      = Cert.Spec.linear X W (fun j => B (ix2 (n0 := 1) (n1 := 256) 0 (j 0))) (((cfg0.win 3).blk t).view.emb (ix2 p q))
  refine (stored_apply _ _ _ (ix2 p q)).trans ?_
  unfold Cert.Spec.linear
  show (∑ k : Fin 256, X (((cfg0.win 0).blk t).view.emb (ix2 (n0 := 2000) (n1 := 256) p k))
          * W (((cfg0.win 1).blk t).view.emb (ix2 (n0 := 256) (n1 := 256) k q)))
        + B (((cfg0.win 2).blk t).view.emb (ix2 (n0 := 1) (n1 := 256) 0 q))
      = (∑ k : Fin 256, X (ix2 (n0 := 10000) (n1 := 256) ((((cfg0.win 3).blk t).view.emb (ix2 p q)) 0) k)
          * W (ix2 (n0 := 256) (n1 := 256) k ((((cfg0.win 3).blk t).view.emb (ix2 p q)) 1)))
        + B (ix2 (n0 := 1) (n1 := 256) 0 ((ix1 (n := 256) ((((cfg0.win 3).blk t).view.emb (ix2 p q)) 1)) 0))
  have hp : p.val < 2000 := p.isLt
  have hq : q.val < 256 := q.isLt
  congr 1
  · refine Finset.sum_congr rfl fun k _ => ?_
    have hk : k.val < 256 := k.isLt
    congr 1
    · refine congrArg X (funext fun a => Fin.ext ?_)
      match a with
      | ⟨0, _⟩ => show win0_0.index t (0 : Fin 2) * 2000 + 1 * p.val = win0_3.index t (0 : Fin 2) * 2000 + 1 * p.val; omega
      | ⟨1, _⟩ => show win0_0.index t (1 : Fin 2) * 256 + 1 * k.val = k.val; omega
    · refine congrArg W (funext fun a => Fin.ext ?_)
      match a with
      | ⟨0, _⟩ => show win0_1.index t (0 : Fin 2) * 256 + 1 * k.val = k.val; omega
      | ⟨1, _⟩ => show win0_1.index t (1 : Fin 2) * 256 + 1 * q.val = win0_3.index t (1 : Fin 2) * 256 + 1 * q.val; omega
  · refine congrArg B (funext fun a => Fin.ext ?_)
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega

/-- What point `t` writes back is block `t` of the dense layer of the arrays found. -/
theorem flushed_eq (c : Dev nD) (t : Fin cfg0.N) :
    (dats m 0 c).flushed 3 t = ((cfg0.win 3).blk t).view.read (Elt Ideal) (result m c) := by
  rw [Cert.KernelIdeal.Value.flushed3]
  exact block_eq (feat m c) (wts m c) (brow m c) t

/-- An index of the result lies in point `t`'s block iff each coordinate lies in the block's range on its axis. -/
theorem mem_block (t : Fin cfg0.N) (i : S10000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v19).slice (win0_3.rect t)).set ↔ _
  rw [View.set_slice_whole, Rect.mem_set_unit]
  exact Iff.rfl

/-- Row r of the result lies in the block of the point whose block index is r / 2000. -/
theorem covered (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ := block_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The result array after the run is the dense layer of the arrays found. -/
theorem final (c : Dev nD) : (dats m 0 c).arrAt 3 cfg0.N = result m c :=
  (dats m 0 c).arrAt_eq_of_cover 3 (result m c) (fun t _ => flushed_eq m c t) covered

/-- The run, read: the result array at the dense layer of the arrays found, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Hand

end
-- ==== Proof.RefValue.lean ====
/-
  The reference's result, entry by entry: its last three operations are a matrix product of its feature matrix
  (`h` joined to the mean of the gathered rows) with the weights, contracted over the 256 columns, and the bias
  broadcast down the rows and added. Read at (r, c) that is `(∑ k, X (r, k) · W (k, c)) + b c`: the dense layer of
  `Cert.Spec.linear` applied to the reference's own feature matrix.
-/
import proofs.«406938_j54614804136338_1_alg».proof.Proof.RefRead
import proofs.«406938_j54614804136338_1_alg».proof.Proof.Spec

noncomputable section

namespace Cert.ReferenceIdeal.Hand

open Cert.ReferenceIdeal Cert.ReferenceIdeal.Gen Cert.ReferenceIdeal.ReadP Idealize.ShloMosaic Idealize.ShloMosaic.ValueIdx

/-- The reference's result is the dense layer of its feature matrix, the weights and the bias. -/
theorem result_eq (x0 : (⟨S10000x128, .f32⟩ : BufTy).Contents (Elt Ideal)) (x1 x2 : (⟨S640000, .i32⟩ : BufTy).Contents (Elt Ideal))
    (x3 : (⟨S256x256, .f32⟩ : BufTy).Contents (Elt Ideal)) (x4 : (⟨S256, .f32⟩ : BufTy).Contents (Elt Ideal)) :
    val_main_v27 (F := Ideal) x0 x1 x2 x3 x4 = Cert.Spec.linear (val_main_v23 (F := Ideal) x0 x1 x2) x3 x4 := by
  funext i
  obtain ⟨r, c, rfl⟩ : ∃ (r : Fin 10000) (c : Fin 256), i = ix2 r c := ⟨i 0, i 1, eq_ix2 i⟩
  rw [val_main_v27_apply, val_main_v24_apply, val_main_v26_apply, val_main_v25_apply]
  have el : ∀ k : Fin 256, lidx_main_v24 (ix2 r c) k = ix2 (n0 := 10000) (n1 := 256) r k := fun k => funext fun a => by
    match a with
    | ⟨0, _⟩ => rfl
    | ⟨1, _⟩ => rfl
  have er : ∀ k : Fin 256, ridx_main_v24 (ix2 r c) k = ix2 (n0 := 256) (n1 := 256) k c := fun k => funext fun a => by
    match a with
    | ⟨0, _⟩ => rfl
    | ⟨1, _⟩ => rfl
  have eb : idx_main_v25 (idx_main_v26 (ix2 r c)) = ix1 (n := 256) c := funext fun a => by
    match a with
    | ⟨0, _⟩ => rfl
  rw [eb]
  simp only [el, er]
  rfl

end Cert.ReferenceIdeal.Hand

end
-- ==== Proof.PreRange.lean ====
/-
  What the precondition says of the gather index.

  The precondition is the conjunction of four `all`-reductions: the three float inputs finite, and every entry `s`
  of the index `src` with `-10000 ≤ s` and `s < 10000` (signed). Its last conjunct is a reduction by `and`, from one,
  of the elementwise `and` of the two comparisons; the reduction being one, every element is one, and a comparison
  word that is one says its signed inequality.
-/
import proofs.«406938_j54614804136338_1_alg».proof.Proof.Gen.Pre_finite_inputs
import Idealize.ShloMosaic.Lib.ReduceAll
import Idealize.ShloMosaic.Lib.Affine
import Idealize.ShloMosaic.Lib.ValueIdx

noncomputable section

namespace Cert.Pre_finite_inputs.Hand

open Cert.Pre_finite_inputs Cert.Pre_finite_inputs.Facts Idealize.ShloMosaic

variable {F : FTy → Type} [FloatOps F]

instance : Subsingleton S_.Idx := ⟨fun a b => funext fun d => d.elim0⟩

/-- Under the precondition every entry of the gather index lies in [-10000, 10000). -/
theorem src_in_range (a0 : FVec F S10000x128 .f32) (a1 : IVec S640000 32) (a2 : IVec S640000 32) (a3 : FVec F S256x256 .f32)
    (a4 : FVec F S256 .f32) (h : fn (F := F) a0 a1 a2 a3 a4 = fun _ => 1#1) (k : S640000.Idx) :
    -10000 ≤ (a1 k).toInt ∧ (a1 k).toInt < 10000 := by
  have h0 := congrFun h ValueIdx.ix0
  unfold fn at h0
  dsimp only at h0
  unfold fn_part1 at h0
  dsimp only at h0
  have h1 : Host.reduce IntOp.andi
      (andi (cmpi .sge a1 (broadcastInDim S640000 ![] bcast_S_S640000 (constantI S_ 32 4294957296#32)))
        (cmpi .slt a1 (broadcastInDim S640000 ![] bcast_S_S640000 (constantI S_ 32 10000#32))))
      (constantI S_ 1 1#1) reducesTo_S640000_S_d0 h_S_ ValueIdx.ix0 = 1#1 := (IntOp.andi_eq_one.1 h0).2
  have h2 := Host.reduce_andi_all _ _ _ _ _ h1 k
  obtain ⟨h3, h4⟩ := IntOp.andi_eq_one.1 h2
  have h5 : (4294957296#32 : BitVec 32).toInt ≤ (a1 k).toInt := IntOp.cmpi_sge.1 h3
  have h6 : (a1 k).toInt < (10000#32 : BitVec 32).toInt := IntOp.cmpi_slt.1 h4
  have e1 : (4294957296#32 : BitVec 32).toInt = -10000 := by decide
  have e2 : (10000#32 : BitVec 32).toInt = 10000 := by decide
  rw [e1] at h5
  rw [e2] at h6
  exact ⟨h5, h6⟩

end Cert.Pre_finite_inputs.Hand

end
-- ==== Proof.Bridge.lean ====
/-
  The two results are one function of the arguments.

  Both programs end in the dense layer `Cert.Spec.linear`. The kernel applies it to the arrays its region finds, the
  reference to its own feature matrix, the weights and the bias. The arrays agree:

  * the feature matrix. Both build it from `h`, `src` and `dst` by the same host operations in the same order,
    except that the kernel's gather replaces a row by a fill pattern where the wrapped index is out of bounds. Under
    the precondition every entry of `src` is in [-10000, 10000), no row is out of bounds, and the two are one term;
  * the weights, which no host operation of the kernel writes;
  * the bias: the kernel views it as a row of a 1 × 256 array and reads that row at (0, c), which is the bias at c.
-/
import proofs.«406938_j54614804136338_1_alg».proof.Defs
import proofs.«406938_j54614804136338_1_alg».proof.Proof.KernelPrefix
import proofs.«406938_j54614804136338_1_alg».proof.Proof.KernelValue
import proofs.«406938_j54614804136338_1_alg».proof.Proof.RefValue
import proofs.«406938_j54614804136338_1_alg».proof.Proof.PreRange

noncomputable section

namespace Cert.Proof.Bridge

open Idealize.ShloMosaic Idealize.ShloMosaic.TcCoe Idealize.SL.Sem Idealize.ShloMosaic.ValueIdx

/-- With the plain gather for messages, the kernel's feature matrix is the reference's: the same operations, in the same
    order, of the same arguments. -/
theorem features_eq (h : (⟨Cert.KernelIdeal.S10000x128, .f32⟩ : BufTy).Contents (Elt Ideal))
    (src dst : (⟨Cert.KernelIdeal.S640000, .i32⟩ : BufTy).Contents (Elt Ideal)) :
    Cert.KernelIdeal.Hand.meanConcat (F := Ideal) h dst (Cert.KernelIdeal.Hand.gathered (F := Ideal) h src)
      = Cert.ReferenceIdeal.ReadP.val_main_v23 (F := Ideal) h src dst := rfl

/-- The bias row the kernel's region finds, read along the columns, is the bias. -/
theorem biasFound_eq (m : (ℓ : Loc Cert.KernelIdeal.nD Cert.KernelIdeal.τ Cert.KernelIdeal.sig) → Buf (Elt Ideal) ℓ) (c : Dev Cert.KernelIdeal.nD) :
    Cert.KernelIdeal.Hand.biasFound m c = (m ((c : Thread Cert.KernelIdeal.nD Cert.KernelIdeal.τ).loc Cert.KernelIdeal.main_arg4) : (⟨1, ![256]⟩ : Shape).Idx → EReal) := by
  funext j
  unfold Cert.KernelIdeal.Hand.biasFound
  show (Cert.KernelIdeal.Gen.V m c Cert.KernelIdeal.main_v18 : (⟨Cert.KernelIdeal.S1x256, .f32⟩ : BufTy).Contents (Elt Ideal)) _ = _
  rw [Cert.KernelIdeal.Hand.V_biasRow]
  refine (shapeCast_addUnit_apply ![256] _ _ _).trans (congrArg _ (funext fun a => ?_))
  match a with
  | ⟨0, _⟩ => rfl

/-- Under the precondition the kernel's result array is the reference's result term of the same arguments. -/
theorem result_eq_reference (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Hand.result m c
      = Cert.ReferenceIdeal.ReadP.val_main_v27 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  have hsrc : ∀ k : Cert.KernelIdeal.S640000.Idx,
      -10000 ≤ ((m ((c : Thread Cert.KernelIdeal.nD Cert.KernelIdeal.τ).loc Cert.KernelIdeal.main_arg1) : IVec Cert.KernelIdeal.S640000 32) k).toInt
        ∧ ((m ((c : Thread Cert.KernelIdeal.nD Cert.KernelIdeal.τ).loc Cert.KernelIdeal.main_arg1) : IVec Cert.KernelIdeal.S640000 32) k).toInt < 10000 :=
    fun k => Cert.Pre_finite_inputs.Hand.src_in_range (F := Ideal) _ _ _ _ _ (hpre c) k
  have e1 : Cert.KernelIdeal.Hand.feat m c
      = Cert.ReferenceIdeal.ReadP.val_main_v23 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) :=
    ((Cert.KernelIdeal.Hand.V_features (F := Ideal) m c).trans
      (congrArg (Cert.KernelIdeal.Hand.meanConcat (F := Ideal) _ _) (Cert.KernelIdeal.Hand.taken_eq_gathered (F := Ideal) _ _ hsrc))).trans
      (features_eq _ _ _)
  have e2 : Cert.KernelIdeal.Hand.wts m c = m ((c : Thread Cert.KernelIdeal.nD Cert.KernelIdeal.τ).loc Cert.KernelIdeal.main_arg3) :=
    Cert.KernelIdeal.Gen.V_main_arg3 m c
  rw [Cert.ReferenceIdeal.Hand.result_eq]
  unfold Cert.KernelIdeal.Hand.result
  rw [e1, e2, biasFound_eq]

end Cert.Proof.Bridge

end
-- ==== Proof.lean ====
/- The kernel computes a graph layer's update: for each node the mean of its in-neighbours' feature rows (gathered by
   `src`, summed by `dst`, divided by the in-degree, zero where the degree is zero), joined to the node's own row, then
   a dense layer `x · W + b`. The gather, the sums and the division are host operations in both programs; the kernel
   proper is the dense layer, tiled over five blocks of 2000 rows, with bf16 operands (the identity on the extended
   reals) and an f32 accumulator.

   The statement carries one added precondition: every entry of `src` lies in [-10000, 10000), the range in which the
   reference's own row lookup `h[src]` is inside the array (negative entries counting from the end). Outside it the
   reference clamps the index while the kernel's lookup fills the row with a NaN pattern, and the two results differ.

   The frames are the generated ones (the reference's is its run with the result dropped). `preserves` is trivial: the
   ideal pass rewrote nothing. `algebraic`: the kernel's result array is the dense layer of the arrays its region finds
   (Proof/KernelPayload.lean, Proof/KernelValue.lean); those arrays are the reference's feature matrix, the weights and
   the bias once the precondition rules out filled rows (Proof/KernelPrefix.lean, Proof/PreRange.lean,
   Proof/Bridge.lean); and the reference's result is the same dense layer of them (Proof/RefValue.lean). -/
import proofs.«406938_j54614804136338_1_alg».proof.Defs
import proofs.«406938_j54614804136338_1_alg».proof.Proof.Gen.Kernel
import proofs.«406938_j54614804136338_1_alg».proof.Proof.Gen.Kernel.Skeleton
import proofs.«406938_j54614804136338_1_alg».proof.Proof.Gen.Kernel.Launch
import proofs.«406938_j54614804136338_1_alg».proof.Proof.Gen.Kernel.Points
import proofs.«406938_j54614804136338_1_alg».proof.Proof.Gen.Kernel.Frame
import proofs.«406938_j54614804136338_1_alg».proof.Proof.Gen.KernelIdeal
import proofs.«406938_j54614804136338_1_alg».proof.Proof.Gen.KernelIdeal.Skeleton
import proofs.«406938_j54614804136338_1_alg».proof.Proof.Gen.KernelIdeal.Launch
import proofs.«406938_j54614804136338_1_alg».proof.Proof.Gen.KernelIdeal.Points
import proofs.«406938_j54614804136338_1_alg».proof.Proof.Gen.KernelIdeal.Frame
import proofs.«406938_j54614804136338_1_alg».proof.Proof.Gen.ReferenceIdeal
import proofs.«406938_j54614804136338_1_alg».proof.Proof.Gen.Pre_finite_inputs
import proofs.«406938_j54614804136338_1_alg».proof.Proof.Gen.KernelIdeal.Value
import proofs.«406938_j54614804136338_1_alg».proof.Proof.RefRun
import proofs.«406938_j54614804136338_1_alg».proof.Proof.RefRead
import proofs.«406938_j54614804136338_1_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result at the dense layer of the feature matrix, the weights and the bias of the shared
    arguments: the kernel's by its blocks (`Hand.run`), the reference's by its host operations, and the two terms are
    equal under the precondition (`Bridge.result_eq_reference`). -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1, (hagree c).2.2.2.2]
  exact (Cert.Proof.Bridge.result_eq_reference m hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
